-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x8 .f32) (main_arg4 : FVec F S4096x8 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S8192x8 : Shape := ⟨2, ![8192, 8]⟩
abbrev S_ : Shape := ⟨0, ![]⟩
abbrev S1x4096 : Shape := ⟨2, ![1, 4096]⟩
abbrev S1024x2048 : Shape := ⟨2, ![1024, 2048]⟩
abbrev S1x1024 : Shape := ⟨2, ![1, 1024]⟩
abbrev S1024x8 : Shape := ⟨2, ![1024, 8]⟩
abbrev S1024x1024 : Shape := ⟨2, ![1024, 1024]⟩
abbrev S2048x1024 : Shape := ⟨2, ![2048, 1024]⟩
abbrev S8x1024 : Shape := ⟨2, ![8, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S1x4096, .f32⟩
  | .hbm, ⟨10, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1024x8, .f32⟩
  | .local _ .vmem, ⟨7, _⟩ => ⟨S1024x8, .f32⟩
  | .local _ .vmem, ⟨8, _⟩ => ⟨S1024x8, .f32⟩
  | .local _ .vmem, ⟨9, _⟩ => ⟨S1024x8, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S8192x8 : S_.BroadcastsInDim S8192x8 (![] : Fin 0 → Fin S8192x8.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  transposes_S1024x2048_p1_0_S2048x1024 : S1024x2048.Transposes [1, 0] S2048x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  transposes_S1024x8_p1_0_S8x1024 : S1024x8.Transposes [1, 0] S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S8192x4096_S4096x8_S8192x8_1_0_0_1_n_n_wf : DotDims.WF S8192x4096 S4096x8 S8192x8 [1] [0] [0] [1] [] []
  dot_S1024x2048_S2048x1024_S1024x1024_1_0_0_1_n_n_wf : DotDims.WF S1024x2048 S2048x1024 S1024x1024 [1] [0] [0] [1] [] []
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .f32 = 32 ∨ (Rect.block (s := S8192x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S4096x8.size a
  hwx0_4 : ∀ i : grid0.Coords, EltTy.bits .f32 = 32 ∨ (Rect.block (s := S4096x8) S1024x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S8x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S4096x8_S8x4096_1_0 : S4096x8.Transposes [1, 0] S8x4096
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x8_S8x4096_S4096x4096_1_0_0_1_n_n_wf : DotDims.WF S4096x8 S8x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.Spec.lean ====
/-
  One entry of  x · Wᵀ + b + x · (c · A · Bᵀ)ᵀ  written two ways, and the law that joins them.

  For x [8192 × 4096], W [4096 × 4096], b [4096], A and B [4096 × 8] and a scale c, the entry at row T and column M is

    direct      (∑ n, x(T,n) · W(M,n)  +  b(M))  +  ∑ n, x(T,n) · (c · ∑ r, A(M,r) · B(n,r))

  — the correction c · A · Bᵀ formed first, a full [4096 × 4096] array, and then applied to x —, or

    block-wise  (((0 + ∑ k < 2048, x(T,k) · W(M,k)) + ∑ k < 2048, x(T,2048+k) · W(M,2048+k))  +  b(M))
                  +  ∑ r, (c · ∑ n, x(T,n) · B(n,r)) · A(M,r)

  — the shared axis of x · Wᵀ summed in two halves from zero, and the correction applied through the thin projection
  x · B [8192 × 8], never forming the [4096 × 4096] array.  On the extended reals the two differ in general (the
  exchange  ∑ r, (c · ∑ n, u n r) · a r = ∑ n, x n · (c · ∑ r, …)  distributes products over sums, which fails at
  infinities); where every entry and the scale are real numbers both are the same real number: the halves add up to the
  whole sum, and the double sum over (r, n) of  c · x(T,n) · B(n,r) · A(M,r)  is taken in either order.
-/
import proofs.«177378_j17188459119051_1_alg».proof.Proof.LibReal
import Idealize.ShloMosaic.Lib.ValueIdx
import Mathlib.Algebra.BigOperators.Fin
import Mathlib.Algebra.BigOperators.Ring.Finset
import Mathlib.Tactic.Ring

noncomputable section

open scoped BigOperators

namespace Cert.LowRank

open Idealize.ShloMosaic Idealize.ShloMosaic.ValueIdx Cert.RealLib

/-- The shapes of x, of W, of b, and of A and B. -/
abbrev Sx : Shape := ⟨2, ![8192, 4096]⟩
abbrev Sw : Shape := ⟨2, ![4096, 4096]⟩
abbrev Sb : Shape := ⟨1, ![4096]⟩
abbrev Sa : Shape := ⟨2, ![4096, 8]⟩

/-- Position k of the first half, and of the second half, of the shared axis of length 4096. -/
abbrev lo (k : Fin 2048) : Fin 4096 := ⟨k.val, by have := k.isLt; omega⟩
abbrev hi (k : Fin 2048) : Fin 4096 := ⟨2048 + k.val, by have := k.isLt; omega⟩

/-- The entry at (T, M), the [4096 × 4096] correction formed first. -/
def directAt (c : EReal) (x : Sx.Idx → EReal) (W : Sw.Idx → EReal) (b : Sb.Idx → EReal) (A B : Sa.Idx → EReal)
    (T : Fin 8192) (M : Fin 4096) : EReal :=
  ((∑ n : Fin 4096, x (ix2 T n) * W (ix2 M n)) + b (ix1 M))
    + ∑ n : Fin 4096, x (ix2 T n) * (c * ∑ r : Fin 8, A (ix2 M r) * B (ix2 n r))

/-- The entry at (T, M), the shared axis in two halves from zero and the correction through the projection x · B. -/
def viaBlocksAt (c : EReal) (x : Sx.Idx → EReal) (W : Sw.Idx → EReal) (b : Sb.Idx → EReal) (A B : Sa.Idx → EReal)
    (T : Fin 8192) (M : Fin 4096) : EReal :=
  ((((0 : EReal) + ∑ k : Fin 2048, x (ix2 T (lo k)) * W (ix2 M (lo k)))
      + ∑ k : Fin 2048, x (ix2 T (hi k)) * W (ix2 M (hi k))) + b (ix1 M))
    + ∑ r : Fin 8, (c * ∑ n : Fin 4096, x (ix2 T n) * B (ix2 n r)) * A (ix2 M r)

/-- The whole array, entry by entry, in the direct form. -/
def direct (c : EReal) (x : Sx.Idx → EReal) (W : Sw.Idx → EReal) (b : Sb.Idx → EReal) (A B : Sa.Idx → EReal) : Sx.Idx → EReal :=
  fun i => directAt c x W b A B (i 0) (i 1)

/-- The whole array, entry by entry, in the block-wise form. -/
def viaBlocks (c : EReal) (x : Sx.Idx → EReal) (W : Sw.Idx → EReal) (b : Sb.Idx → EReal) (A B : Sa.Idx → EReal) : Sx.Idx → EReal :=
  fun i => viaBlocksAt c x W b A B (i 0) (i 1)

/-- The coercion of the reals into the extended reals goes through finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 positions is the sum over the first 2048 plus the sum over the last 2048. -/
theorem sum_halves {M : Type*} [AddCommMonoid M] (f : Fin 4096 → M) :
    ∑ n : Fin 4096, f n = ∑ k : Fin 2048, f (lo k) + ∑ k : Fin 2048, f (hi k) :=
  Fin.sum_univ_add (a := 2048) (b := 2048) (fun i : Fin (2048 + 2048) => f i)

/-- Over the reals: the two halves make the whole sum, and the double sum is taken in either order. -/
theorem real_law (c : ℝ) (xr wr : Fin 4096 → ℝ) (bm : ℝ) (ar : Fin 8 → ℝ) (br : Fin 4096 → Fin 8 → ℝ) :
    (((0 + ∑ k : Fin 2048, xr (lo k) * wr (lo k)) + ∑ k : Fin 2048, xr (hi k) * wr (hi k)) + bm)
        + ∑ r : Fin 8, (c * ∑ n : Fin 4096, xr n * br n r) * ar r
      = ((∑ n : Fin 4096, xr n * wr n) + bm) + ∑ n : Fin 4096, xr n * (c * ∑ r : Fin 8, ar r * br n r) := by
  rw [sum_halves (fun n => xr n * wr n), zero_add]
  congr 1
  simp only [Finset.mul_sum, Finset.sum_mul]
  rw [Finset.sum_comm]
  refine Finset.sum_congr rfl fun n _ => Finset.sum_congr rfl fun r _ => ?_
  ring

/-- Where every entry of x, W, b, A, B and the scale c are real numbers, the block-wise entry is the direct entry. -/
theorem viaBlocksAt_eq_directAt {c : EReal} {x : Sx.Idx → EReal} {W : Sw.Idx → EReal} {b : Sb.Idx → EReal}
    {A B : Sa.Idx → EReal} (hc : IsReal c) (hx : AllReal x) (hW : AllReal W) (hb : AllReal b) (hA : AllReal A)
    (hB : AllReal B) (T : Fin 8192) (M : Fin 4096) :
    viaBlocksAt c x W b A B T M = directAt c x W b A B T M := by
  obtain ⟨cr, rfl⟩ := hc
  choose xr hx using hx
  choose wr hW using hW
  choose br hb using hb
  choose ar hA using hA
  choose Br hB using hB
  unfold viaBlocksAt directAt
  simp only [hx, hW, hb, hA, hB]
  have h := congrArg (fun r : ℝ => (r : EReal))
    (real_law cr (fun n => xr (ix2 T n)) (fun n => wr (ix2 M n)) (br (ix1 M)) (fun r => ar (ix2 M r))
      (fun n r => Br (ix2 n r)))
  simpa only [EReal.coe_add, EReal.coe_mul, EReal.coe_zero, coe_sum] using h

/-- The same for the whole arrays. -/
theorem viaBlocks_eq_direct {c : EReal} {x : Sx.Idx → EReal} {W : Sw.Idx → EReal} {b : Sb.Idx → EReal}
    {A B : Sa.Idx → EReal} (hc : IsReal c) (hx : AllReal x) (hW : AllReal W) (hb : AllReal b) (hA : AllReal A)
    (hB : AllReal B) : viaBlocks c x W b A B = direct c x W b A B :=
  funext fun i => viaBlocksAt_eq_directAt hc hx hW hb hA hB (i 0) (i 1)

end Cert.LowRank

end
-- ==== Proof.Finite.lean ====
/-
  From the test "every input is finite" to "every entry of every input is a real number".

  The test is the conjunction, over the five inputs, of all (|v| < +infinity). Over the extended reals the only values
  whose absolute value is not below +infinity are the two infinities, so an input that passes has real entries only.
  A conjunction of one-bit words is 1 exactly when both words are 1; the chain is associated to the left,
  (((a0 and a1) and a2) and a3) and a4, and is taken apart from the outside in.
-/
import proofs.«177378_j17188459119051_1_alg».proof.Proof.Gen.Pre_finite_inputs
import proofs.«177378_j17188459119051_1_alg».proof.Proof.LibReal

noncomputable section

namespace Cert.LowRank.Fin

open Idealize.ShloMosaic Cert.Pre_finite_inputs

/-- The one index of a rank-0 array. -/
private abbrev i0 : (⟨0, ![]⟩ : Shape).Idx := fun a => a.elim0

/-- If the test "all five inputs are finite" came out true, every entry of every input is a real number. -/
theorem real_of_pre (x0 : FVec Ideal Cert.Pre_finite_inputs.S8192x4096 .f32) (x1 : FVec Ideal Cert.Pre_finite_inputs.S4096x4096 .f32) (x2 : FVec Ideal Cert.Pre_finite_inputs.S4096 .f32) (x3 x4 : FVec Ideal Cert.Pre_finite_inputs.S4096x8 .f32)
    (h : Cert.Pre_finite_inputs.fn (F := Ideal) x0 x1 x2 x3 x4 = fun _ => 1#1) :
    Cert.RealLib.AllReal x0 ∧ Cert.RealLib.AllReal x1 ∧ Cert.RealLib.AllReal x2 ∧ Cert.RealLib.AllReal x3 ∧ Cert.RealLib.AllReal x4 := by
  have h0 := congrFun h i0
  dsimp only [Cert.Pre_finite_inputs.fn, Cert.Pre_finite_inputs.fn_part1] at h0
  -- the outermost conjunction first: (a0 and a1 and a2 and a3) and a4
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨Cert.RealLib.allReal_of_all_abs_lt_inf x0 Facts.bcast_S_S8192x4096 Facts.reducesTo_S8192x4096_S_d0_1 Facts.h_S_ i0 h0',
    Cert.RealLib.allReal_of_all_abs_lt_inf x1 Facts.bcast_S_S4096x4096 Facts.reducesTo_S4096x4096_S_d0_1 Facts.h_S_ i0 h1,
    Cert.RealLib.allReal_of_all_abs_lt_inf x2 Facts.bcast_S_S4096 Facts.reducesTo_S4096_S_d0 Facts.h_S_ i0 h2,
    Cert.RealLib.allReal_of_all_abs_lt_inf x3 Facts.bcast_S_S4096x8 Facts.reducesTo_S4096x8_S_d0_1 Facts.h_S_ i0 h3,
    Cert.RealLib.allReal_of_all_abs_lt_inf x4 Facts.bcast_S_S4096x8 Facts.reducesTo_S4096x8_S_d0_1 Facts.h_S_ i0 h4⟩

end Cert.LowRank.Fin

end
-- ==== Proof.RefSide.lean ====
/-
  The reference's result, read entry by entry, is the direct form of  x · Wᵀ + b + x · (c · A · Bᵀ)ᵀ.

  The reference computes, in order: Bᵀ; the [4096 × 4096] product A · Bᵀ; that product scaled entrywise by the
  constant c; Wᵀ and the product x · Wᵀ; the bias b spread over the rows and added; the transpose of the scaled
  correction and the product of x with it; and the sum of the two.  Reading the last array at row T and column M and
  following each stage back to the arguments gives

    (∑ n, x(T,n) · W(M,n)  +  b(M))  +  ∑ n, x(T,n) · (c · ∑ r, A(M,r) · B(n,r)),

  the two transposes of W and of the correction cancelling against the contraction's own reading of its right
  operand by column.  Nothing is rearranged: the sums are the same sums over the same index sets, term for term, so
  the identity holds on the extended reals with no finiteness assumption.
-/
import proofs.«177378_j17188459119051_1_alg».proof.Proof.Gen.ReferenceIdeal.Read
import proofs.«177378_j17188459119051_1_alg».proof.Proof.Spec
import Idealize.ShloMosaic.Lib.ValueIdx
import Idealize.ShloMosaic.PureOps.Ideal.Laws

noncomputable section

open scoped BigOperators

namespace Cert.LowRank.Ref

open Idealize.ShloMosaic Idealize.ShloMosaic.ValueIdx Cert.ReferenceIdeal Cert.ReferenceIdeal.Read

/-- The reference's result array is the direct form with the scale c the number the pattern 0x3F800000 denotes:
    at (T, M), (∑ n, x(T,n) · W(M,n) + b(M)) + ∑ n, x(T,n) · (c · ∑ r, A(M,r) · B(n,r)). Each index function of a
    transpose, a spreading of b or a contraction, taken at (T, M), is the pair of coordinates it names. -/
theorem val_eq_direct (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (x3 x4 : (⟨Cert.ReferenceIdeal.S4096x8, .f32⟩ : BufTy).Contents (Elt Ideal)) :
    Cert.ReferenceIdeal.Read.val_main_v11 (F := Ideal) x0 x1 x2 x3 x4
      = Cert.LowRank.direct (Ideal.ofBits .f32 0x3F800000#32) x0 x1 x2 x3 x4 := by
  funext i
  obtain ⟨T, M, rfl⟩ : ∃ (T : Fin 8192) (M : Fin 4096), i = ix2 T M := ⟨i 0, i 1, eq_ix2 i⟩
  show _ = directAt _ x0 x1 x2 x3 x4 T M
  unfold directAt
  rw [val_main_v11_apply, val_main_v8_apply, val_main_v5_apply, val_main_v7_apply, val_main_v6_apply,
    val_main_v10_apply]
  simp only [val_main_v4_apply, val_main_v9_apply, val_main_v3_apply, val_main_v2_apply, val_main_cst_apply,
    val_main_v1_apply, val_main_v0_apply, Ideal.addf_def, Ideal.mulf_def, Ideal.ofBits_def]
  have e5l : ∀ n : Fin 4096, lidx_main_v5 (ix2 T M) n = ix2 T n := fun n =>
    funext fun a => Fin.ext (by match a with | ⟨0, _⟩ => rfl | ⟨1, _⟩ => rfl)
  have e4 : ∀ n : Fin 4096, idx_main_v4 (ridx_main_v5 (ix2 T M) n) = ix2 M n := fun n =>
    funext fun a => Fin.ext (by match a with | ⟨0, _⟩ => rfl | ⟨1, _⟩ => rfl)
  have e6 : idx_main_v6 (idx_main_v7 (ix2 T M)) = ix1 M :=
    funext fun a => Fin.ext (by match a with | ⟨0, _⟩ => rfl)
  have e10l : ∀ n : Fin 4096, lidx_main_v10 (ix2 T M) n = ix2 T n := fun n =>
    funext fun a => Fin.ext (by match a with | ⟨0, _⟩ => rfl | ⟨1, _⟩ => rfl)
  have e1l : ∀ (n : Fin 4096) (r : Fin 8),
      lidx_main_v1 (idx_main_v9 (ridx_main_v10 (ix2 T M) n)) r = ix2 M r := fun n r =>
    funext fun a => Fin.ext (by match a with | ⟨0, _⟩ => rfl | ⟨1, _⟩ => rfl)
  have e0 : ∀ (n : Fin 4096) (r : Fin 8),
      idx_main_v0 (ridx_main_v1 (idx_main_v9 (ridx_main_v10 (ix2 T M) n)) r) = ix2 n r := fun n r =>
    funext fun a => Fin.ext (by match a with | ⟨0, _⟩ => rfl | ⟨1, _⟩ => rfl)
  simp only [e5l, e4, e6, e10l, e1l, e0]

end Cert.LowRank.Ref

end
-- ==== Proof.Pieces.lean ====
/-
  What one grid point of the kernel leaves behind, as values of its loads.

  The kernel body keeps an accumulator block [1024 × 1024] between the two points that share an output block.  At the
  first of the two (the reduction coordinate is 0) it stores the zero block into the accumulator, reads it back and
  stores  acc + xblk · wblkᵀ ; at the second (the coordinate is 1) it reads what the first left and stores
  acc + xblk · wblkᵀ  again, then stores the output block  (acc + bias row) + pblk · ablkᵀ  computed from the
  accumulator it has just written.  Each statement below says that the contents a point leaves — the stores it made,
  read back in order, a later store covering an earlier one — are exactly that arithmetic of the blocks it loaded:
  the body's three stored values composed.  They hold for any reading of the floats.
-/
import proofs.«177378_j17188459119051_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the block's corner. -/
theorem hz : (![0, 0] : Fin 2 → Nat) = fun _ => 0 := funext fun a => by fin_cases a <;> rfl

/-- A first point leaves in the accumulator  zero + xblk · wblkᵀ : the zero block stored, read back, and updated. -/
theorem scratch_A (c : Dev nD) (i : grid0.Coords) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x2048 .f32) (x1 : Vec F S1024x2048 .f32) (x2 : Vec F S1x1024 .f32) (x3 : Vec F S1024x8 .f32) (x4 : Vec F S1024x8 .f32) :
    sout0_A_0 c i arg3 harg3 arg4 harg4 arg5 harg5 arg6 harg6 arg7 harg7 arg8 harg8 arg9 harg9 hc0 hc1 x0 x1 x2 x3 x4 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- A second point leaves in the accumulator  acc + xblk · wblkᵀ , acc what the point before left. -/
theorem scratch_B (c : Dev nD) (i : grid0.Coords) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x2048 .f32) (x1 : Vec F S1024x2048 .f32) (x2 : Vec F S1x1024 .f32) (x3 : Vec F S1024x8 .f32) (x4 : Vec F S1024x8 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg9.read_unread,
    View.ld_unit_zero (S := S1024x2048) hz, View.ld_unit_zero (S := S1024x1024) hz]

/-- A second point leaves in the output block  (acc' + bias row) + pblk · ablkᵀ , acc' the accumulator it has just
    updated. -/
theorem out_B (c : Dev nD) (i : grid0.Coords) (arg3 : Memref sig .tc .vmem S1024x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S1024x8 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x2048 .f32) (x1 : Vec F S1024x2048 .f32) (x2 : Vec F S1x1024 .f32) (x3 : Vec F S1024x8 .f32) (x4 : Vec F S1024x8 .f32) (xs0 : Vec F S1024x1024 .f32) :
    out0_B_5 c i arg3 harg3 arg4 harg4 arg5 harg5 arg6 harg6 arg7 harg7 arg8 harg8 arg9 harg9 hc0 hc1 x0 x1 x2 x3 x4 xs0 = k0_pay3 x3 x4 (k0_pay2 x0 x1 xs0) x2 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, View.readCov_unit_zero (S := S1024x1024) _ hz, harg3.read_unread, harg4.read_unread,
    harg5.read_unread, harg6.read_unread, harg7.read_unread, harg9.read_unread,
    View.ld_unit_zero (S := S1024x2048) hz, View.ld_unit_zero (S := S1024x1024) hz,
    View.ld_unit_zero (S := S1024x8) hz, View.ld_unit_zero (S := S1x1024) hz]

end Cert.KernelIdeal.Pieces

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Payload.lean ====
/-
  The kernel body's stored values read at one entry, at the ideal values.

  At the ideal values a change of float format is the identity, the transpose of a block swaps its two coordinates,
  and a matrix product into the zero accumulator is the plain sum over the shared axis.  So at entry (p, q) of a
  [1024 × 1024] block:  the zero fill is 0;  the accumulate step  acc + xblk · wblkᵀ  is
  acc(p,q) + ∑ k < 2048, xblk(p,k) · wblk(q,k);  and the closing step  (acc + bias row) + pblk · ablkᵀ  is
  (acc(p,q) + row(0,q)) + ∑ r < 8, pblk(p,r) · ablk(q,r).
-/
import proofs.«177378_j17188459119051_1_alg».proof.Proof.Gen.KernelIdeal.Skeleton
import proofs.«177378_j17188459119051_1_alg».proof.Proof.LibDotRowsCols
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.Lib.DotRowsCols

/-- The block product  [1024 × 2048] · [2048 × 1024]  contracts the left operand's columns with the right operand's rows. -/
theorem rc_wide : RowsCols (n := 1024) (K := 2048) (c := 1024) dot_S1024x2048_S2048x1024_S1024x1024_1_0_0_1_n_n :=
  ⟨rfl, rfl, rfl, rfl, rfl, rfl⟩

/-- So does the thin product  [1024 × 8] · [8 × 1024]. -/
theorem rc_thin : RowsCols (n := 1024) (K := 8) (c := 1024) dot_S1024x8_S8x1024_S1024x1024_1_0_0_1_n_n :=
  ⟨rfl, rfl, rfl, rfl, rfl, rfl⟩

/-- The zero fill, at an entry. -/
theorem zero_apply (j : S1024x1024.Idx) : k0_pay1 (F := Ideal) j = 0 := by
  unfold k0_pay1
  simp only [shapeCast_self]
  exact Ideal.ofBits_zero_f32

/-- The accumulate step at entry (p, q):  acc(p,q) + ∑ k, xblk(p,k) · wblk(q,k). -/
theorem step_apply (xb wb : Vec Ideal S1024x2048 .f32) (acc : Vec Ideal S1024x1024 .f32) (p q : Fin 1024) :
    k0_pay2 (F := Ideal) xb wb acc (ix2 p q) = acc (ix2 p q) + ∑ k : Fin 2048, xb (ix2 p k) * wb (ix2 q k) := by
  unfold k0_pay2
  simp only [shapeCast_self]
  refine (addf_apply _ _ _).trans ?_
  refine congrArg (acc (ix2 p q) + ·) ?_
  refine (rc_wide.matmul_zero_apply none _ _ (ix2 p q)).trans ?_
  refine Finset.sum_congr rfl fun k _ => ?_
  refine congrArg₂ (· * ·) rfl ?_
  exact transpose_apply [1, 0] _ _ (ix2 k q) (ix2 q k) (fun b => match b with
    | ⟨0, _⟩ => rfl
    | ⟨1, _⟩ => rfl)

/-- The closing step at entry (p, q):  (acc(p,q) + row(0,q)) + ∑ r, pblk(p,r) · ablk(q,r). -/
theorem close_apply (pb ab : Vec Ideal S1024x8 .f32) (acc : Vec Ideal S1024x1024 .f32) (row : Vec Ideal S1x1024 .f32)
    (p q : Fin 1024) :
    k0_pay3 (F := Ideal) pb ab acc row (ix2 p q)
      = (acc (ix2 p q) + row (ix2 (0 : Fin 1) q)) + ∑ r : Fin 8, pb (ix2 p r) * ab (ix2 q r) := by
  unfold k0_pay3
  simp only [shapeCast_self]
  refine (addf_apply _ _ _).trans ?_
  refine congrArg₂ (· + ·) ?_ ?_
  · refine (addf_apply _ _ _).trans ?_
    refine congrArg (acc (ix2 p q) + ·) ?_
    exact broadcastTo_apply row _ (ix2 p q) (ix2 (0 : Fin 1) q) (fun a => match a with
      | ⟨0, _⟩ => by show (0 : Nat) = if (1 : Nat) = 1 then 0 else _; rw [if_pos rfl]
      | ⟨1, _⟩ => by show q.val = if (1024 : Nat) = 1 then 0 else _; rw [if_neg (by decide)]; rfl)
  · refine (rc_thin.matmul_zero_apply none _ _ (ix2 p q)).trans ?_
    refine Finset.sum_congr rfl fun r _ => ?_
    refine congrArg₂ (· * ·) rfl ?_
    exact transpose_apply [1, 0] _ _ (ix2 r q) (ix2 q r) (fun b => match b with
      | ⟨0, _⟩ => rfl
      | ⟨1, _⟩ => rfl)

/-- The two accumulate steps from zero and the closing step, composed, at entry (p, q): the value a pair of points
    sharing an output block leaves there, from the blocks they load. -/
theorem point_apply (x0 w0 x1 w1 : Vec Ideal S1024x2048 .f32) (row : Vec Ideal S1x1024 .f32)
    (pb ab : Vec Ideal S1024x8 .f32) (p q : Fin 1024) :
    k0_pay3 (F := Ideal) pb ab (k0_pay2 x1 w1 (k0_pay2 x0 w0 (k0_pay1 (F := Ideal)))) row (ix2 p q)
      = ((((0 : EReal) + ∑ k : Fin 2048, x0 (ix2 p k) * w0 (ix2 q k)) + ∑ k : Fin 2048, x1 (ix2 p k) * w1 (ix2 q k))
          + row (ix2 (0 : Fin 1) q)) + ∑ r : Fin 8, pb (ix2 p r) * ab (ix2 q r) := by
  rw [close_apply, step_apply, step_apply, zero_apply]

end Cert.KernelIdeal.Payload

end
-- ==== Proof.Blocks.lean ====
/-
  From the kernel's blocks to its whole result array.

  The grid has 8 × 4 × 2 points (row block I, column block J, half h of the shared axis), point number
  t = 8·I + 2·J + h.  At point t the kernel loads rows 1024·I… of x and rows 1024·J… of W, both at columns 2048·h…;
  columns 1024·J… of the bias row; rows 1024·I… of the projection  c · x · B  computed beforehand; rows 1024·J… of A.
  Only the odd points (h = 1) write an output block back, block (I, J), and what they write is the accumulator
  started from zero at the even point before (same I and J, h = 0) and updated at both.  So entry (p, q) of the block
  written at t is the block-wise form of the entry at row T = 1024·I + p and column M = 1024·J + q of
  x · Wᵀ + b + (c · x · B) · Aᵀ : the shared axis in two halves from zero, then the bias, then the thin product.
  The 32 odd points' blocks tile the [8192 × 4096] array, so the array ends holding that function everywhere.
-/
import proofs.«177378_j17188459119051_1_alg».proof.Proof.Gen.KernelIdeal.Value
import proofs.«177378_j17188459119051_1_alg».proof.Proof.Pieces
import proofs.«177378_j17188459119051_1_alg».proof.Proof.Payload
import proofs.«177378_j17188459119051_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.LowRank Cert.Lib.DotRowsCols

variable (m : (ℓ : Loc nD τ sig) → Buf (Elt Ideal) ℓ) (ρ : Dev nD → PrngReg)

/-- The scale c: the number the pattern 0x3F800000 denotes. -/
abbrev scale : EReal := Ideal.ofBits .f32 0x3F800000#32

/-- The five arguments as launched: x, W, b, A, B. -/
abbrev xA (c : Dev nD) : Sx.Idx → EReal := m ((c : Thread nD τ).loc main_arg0)
abbrev wA (c : Dev nD) : Sw.Idx → EReal := m ((c : Thread nD τ).loc main_arg1)
abbrev bA (c : Dev nD) : Sb.Idx → EReal := m ((c : Thread nD τ).loc main_arg2)
abbrev aA (c : Dev nD) : Sa.Idx → EReal := m ((c : Thread nD τ).loc main_arg3)
abbrev bbA (c : Dev nD) : Sa.Idx → EReal := m ((c : Thread nD τ).loc main_arg4)

/-- The grid has 64 points. -/
theorem lt64 (t : Fin cfg0.N) : t.val < 64 := lt_of_lt_of_eq t.isLt (show cfg0.N = 64 from N_0)

/-! ## What the kernel finds when it starts: the projection and the bias row -/

/-- The product  x · B  contracts x's columns with B's rows. -/
theorem rc_proj : RowsCols (n := 8192) (K := 4096) (c := 8) dot_S8192x4096_S4096x8_S8192x8_1_0_0_1_n_n :=
  ⟨rfl, rfl, rfl, rfl, rfl, rfl⟩

/-- The projection array at (T, r):  c · ∑ n, x(T,n) · B(n,r). -/
theorem proj_apply (c : Dev nD) (T : Fin 8192) (r : Fin 8) :
    (V m c main_v2 : S8192x8.Idx → EReal) (ix2 T r) = scale * ∑ n : Fin 4096, xA m c (ix2 T n) * bbA m c (ix2 n r) := by
  have e : (V m c main_v2 : S8192x8.Idx → EReal)
      = mulf (F := Ideal) (broadcastInDim S8192x8 ![] bcast_S_S8192x8 (constant (F := Ideal) S_ .f32 0x3F800000#32))
          (Host.dotGeneral (F := Ideal) (φ₁ := .f32) (φ₂ := .f32) dot_S8192x4096_S4096x8_S8192x8_1_0_0_1_n_n none
            (m ((c : Thread nD τ).loc main_arg0)) (m ((c : Thread nD τ).loc main_arg4))) := by
    dsimp only [V, hostOps0]; after_results
  rw [e]
  refine (mulf_apply _ _ _).trans ?_
  refine congrArg₂ (· * ·) ?_ ?_
  · exact broadcastInDim_apply _ bcast_S_S8192x8 _ (ix2 T r) ix0 (fun a => a.elim0)
  · exact rc_proj.dotGeneral_apply none _ _ (ix2 T r)

/-- The bias as a one-row array at (0, M):  b(M). -/
theorem row_apply (c : Dev nD) (M : Fin 4096) :
    (V m c main_v3 : S1x4096.Idx → EReal) (ix2 (0 : Fin 1) M) = bA m c (ix1 M) := by
  have e : (V m c main_v3 : S1x4096.Idx → EReal)
      = shapeCast S1x4096 (m ((c : Thread nD τ).loc main_arg2)) shapeCasts_S4096_S1x4096 := by
    dsimp only [V, hostOps0]; after_results; rfl
  rw [e]
  exact shapeCast_a_1a_apply _ _ 0 M

/-! ## Which block each point loads and writes -/

/-- The block indices at point t = 8·I + 2·J + h:  x at (I, h), W at (J, h), the bias row at (0, J), the projection at
    (I, 0), A at (J, 0), the output at (I, J). Decided over the 64 points. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = 0
    ∧ win0_4.index t (0 : Fin 2) = t.val / 2 % 4 ∧ win0_4.index t (1 : Fin 2) = 0
    ∧ win0_5.index t (0 : Fin 2) = t.val / 8 ∧ win0_5.index t (1 : Fin 2) = t.val / 2 % 4 :=
  (by decide +kernel : ∀ t : Fin grid0.N, _)

/-- x's block at t, entry (p, k), is x at row 1024·I + p and column 2048·h + k. -/
theorem xblk_apply (c : Dev nD) (t : Fin cfg0.N) (p : Fin 1024) (k : Fin 2048) (T : Fin 8192) (n : Fin 4096)
    (hT : T.val = 1024 * (t.val / 8) + p.val) (hn : n.val = 2048 * (t.val % 2) + k.val) :
    (iblk m c 0 t : Vec Ideal S1024x2048 .f32) (ix2 p k) = xA m c (ix2 T n) := by
  obtain ⟨e0, e1, -⟩ := idx_facts t
  unfold iblk
  rw [View.read_apply]
  refine (congrArg (V m c main_arg0) ?_).trans (congrFun (V_main_arg0 m c) _)
  funext a; apply Fin.ext
  match a with
  | ⟨0, _⟩ => show win0_0.index t (0 : Fin 2) * 1024 + 1 * p.val = T.val; rw [e0, hT]; omega
  | ⟨1, _⟩ => show win0_0.index t (1 : Fin 2) * 2048 + 1 * k.val = n.val; rw [e1, hn]; omega

/-- W's block at t, entry (q, k), is W at row 1024·J + q and column 2048·h + k. -/
theorem wblk_apply (c : Dev nD) (t : Fin cfg0.N) (q : Fin 1024) (k : Fin 2048) (M n : Fin 4096)
    (hM : M.val = 1024 * (t.val / 2 % 4) + q.val) (hn : n.val = 2048 * (t.val % 2) + k.val) :
    (iblk m c 1 t : Vec Ideal S1024x2048 .f32) (ix2 q k) = wA m c (ix2 M n) := by
  obtain ⟨-, -, e0, e1, -⟩ := idx_facts t
  unfold iblk
  rw [View.read_apply]
  refine (congrArg (V m c main_arg1) ?_).trans (congrFun (V_main_arg1 m c) _)
  funext a; apply Fin.ext
  match a with
  | ⟨0, _⟩ => show win0_1.index t (0 : Fin 2) * 1024 + 1 * q.val = M.val; rw [e0, hM]; omega
  | ⟨1, _⟩ => show win0_1.index t (1 : Fin 2) * 2048 + 1 * k.val = n.val; rw [e1, hn]; omega

/-- The bias row's block at t, entry (0, q), is b at 1024·J + q. -/
theorem rowblk_apply (c : Dev nD) (t : Fin cfg0.N) (q : Fin 1024) (M : Fin 4096)
    (hM : M.val = 1024 * (t.val / 2 % 4) + q.val) :
    (iblk m c 2 t : Vec Ideal S1x1024 .f32) (ix2 (0 : Fin 1) q) = bA m c (ix1 M) := by
  obtain ⟨-, -, -, -, e0, e1, -⟩ := idx_facts t
  unfold iblk
  rw [View.read_apply]
  refine (congrArg (V m c main_v3) ?_).trans (row_apply m c M)
  funext a; apply Fin.ext
  match a with
  | ⟨0, _⟩ => show win0_2.index t (0 : Fin 2) * 1 + 1 * 0 = 0; rw [e0]
  | ⟨1, _⟩ => show win0_2.index t (1 : Fin 2) * 1024 + 1 * q.val = M.val; rw [e1, hM]; omega

/-- The projection's block at t, entry (p, r), is  c · ∑ n, x(T,n) · B(n,r)  at row T = 1024·I + p. -/
theorem pblk_apply (c : Dev nD) (t : Fin cfg0.N) (p : Fin 1024) (r : Fin 8) (T : Fin 8192)
    (hT : T.val = 1024 * (t.val / 8) + p.val) :
    (iblk m c 3 t : Vec Ideal S1024x8 .f32) (ix2 p r) = scale * ∑ n : Fin 4096, xA m c (ix2 T n) * bbA m c (ix2 n r) := by
  obtain ⟨-, -, -, -, -, -, e0, e1, -⟩ := idx_facts t
  unfold iblk
  rw [View.read_apply]
  refine (congrArg (V m c main_v2) ?_).trans (proj_apply m c T r)
  funext a; apply Fin.ext
  match a with
  | ⟨0, _⟩ => show win0_3.index t (0 : Fin 2) * 1024 + 1 * p.val = T.val; rw [e0, hT]; omega
  | ⟨1, _⟩ => show win0_3.index t (1 : Fin 2) * 8 + 1 * r.val = r.val; rw [e1]; omega

/-- A's block at t, entry (q, r), is A at row 1024·J + q. -/
theorem ablk_apply (c : Dev nD) (t : Fin cfg0.N) (q : Fin 1024) (r : Fin 8) (M : Fin 4096)
    (hM : M.val = 1024 * (t.val / 2 % 4) + q.val) :
    (iblk m c 4 t : Vec Ideal S1024x8 .f32) (ix2 q r) = aA m c (ix2 M r) := by
  obtain ⟨-, -, -, -, -, -, -, -, e0, e1, -⟩ := idx_facts t
  unfold iblk
  rw [View.read_apply]
  refine (congrArg (V m c main_arg3) ?_).trans (congrFun (V_main_arg3 m c) _)
  funext a; apply Fin.ext
  match a with
  | ⟨0, _⟩ => show win0_4.index t (0 : Fin 2) * 1024 + 1 * q.val = M.val; rw [e0, hM]; omega
  | ⟨1, _⟩ => show win0_4.index t (1 : Fin 2) * 8 + 1 * r.val = r.val; rw [e1]; omega

/-! ## What an odd point writes back -/

/-- The whole result, in the block-wise form, of the arguments as launched. -/
abbrev result (c : Dev nD) : Sx.Idx → EReal :=
  viaBlocks scale (xA m c) (wA m c) (bA m c) (aA m c) (bbA m c)

/-- The value an odd point t leaves in the output block: the closing step over the accumulator updated at t over the
    accumulator the even point before started from zero. -/
theorem written (c : Dev nD) (t : Fin cfg0.N) (h0 : ¬t.val % 2 = 0) (h1 : t.val % 2 = 1)
    (t' : Fin cfg0.N) (ht' : t'.val = t.val - 1) :
    (dats m 0 c).flushed 5 t = (cfg0.win 5).cut (grid0.coords t)
      (k0_pay3 (F := Ideal) (iblk m c 3 t) (iblk m c 4 t)
        (k0_pay2 (iblk m c 0 t) (iblk m c 1 t) (k0_pay2 (iblk m c 0 t') (iblk m c 1 t') (k0_pay1 (F := Ideal)))) (iblk m c 2 t)) := by
  have h0' : t'.val % 2 = 0 := by rw [ht']; omega
  have h1' : ¬t'.val % 2 = 1 := by rw [ht']; omega
  have hprev : (outsAt0 m c (t.val - 1) (Nat.lt_of_le_of_lt (Nat.sub_le _ _) t.isLt)).2
      = k0_pay2 (iblk m c 0 t') (iblk m c 1 t') (k0_pay1 (F := Ideal)) := by
    have e : outsAt0 m c (t.val - 1) (Nat.lt_of_le_of_lt (Nat.sub_le _ _) t.isLt) = outsAt0 m c t'.val t'.isLt := by
      congr 1; exact ht'.symm
    rw [e, outsAt0_A m c t' h0' h1']
    dsimp only
    exact Pieces.scratch_A c (grid0.coords t') (ms0_0 t') (hs0_0 t') (ms0_1 t') (hs0_1 t') (ms0_2 t') (hs0_2 t') (ms0_3 t') (hs0_3 t') (ms0_4 t') (hs0_4 t') (ms0_5 t') (hs0_5 t') scM0_0 (Memref.isWhole_whole _) ((hcond0_0 t').mpr h0') (fun h => h1' ((hcond0_1 t').mp h)) (iblk m c 0 t') (iblk m c 1 t') (iblk m c 2 t') (iblk m c 3 t') (iblk m c 4 t')
  rw [Value.flushed5_B m c t h0 h1]
  refine congrArg ((cfg0.win 5).cut (grid0.coords t)) ?_
  refine (Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2).trans ?_
  rw [hprev]

/-- WHAT AN ODD POINT WRITES BACK is its block of the block-wise result. -/
theorem flushed_eq (c : Dev nD) (t : Fin cfg0.N) (hf : (cfg0.win 5).flush t = true) :
    (dats m 0 c).flushed 5 t = ((cfg0.win 5).blk t).view.read (Elt Ideal) (result m c) := by
  have hN := lt64 t
  have h1 : t.val % 2 = 1 := (flush0_5 t).mp hf
  have h0 : ¬t.val % 2 = 0 := by omega
  have hp : t.val - 1 < cfg0.N := Nat.lt_of_le_of_lt (Nat.sub_le _ _) t.isLt
  rw [written m c t h0 h1 ⟨t.val - 1, hp⟩ rfl]
  obtain ⟨-, -, -, -, -, -, -, -, -, -, e0, e1⟩ := idx_facts t
  funext j
  rw [View.read_apply]
  have hj0 : (j 0).val < 1024 := (j 0).isLt
  have hj1 : (j 1).val < 1024 := (j 1).isLt
  -- the entry's coordinates in the block and in the array
  obtain ⟨p, q, hpq, hp0, hq1⟩ : ∃ (p q : Fin 1024), (cfg0.win 5).xinj (grid0.coords t) j = ix2 p q
      ∧ p.val = (j 0).val ∧ q.val = (j 1).val :=
    ⟨⟨(j 0).val, hj0⟩, ⟨(j 1).val, hj1⟩, funext fun a => Fin.ext (by match a with | ⟨0, _⟩ => rfl | ⟨1, _⟩ => rfl), rfl, rfl⟩
  obtain ⟨T, M, hTM, hT, hM⟩ : ∃ (T : Fin 8192) (M : Fin 4096), ((cfg0.win 5).blk t).view.emb j = ix2 T M
      ∧ T.val = 1024 * (t.val / 8) + p.val ∧ M.val = 1024 * (t.val / 2 % 4) + q.val :=
    ⟨⟨1024 * (t.val / 8) + p.val, by omega⟩, ⟨1024 * (t.val / 2 % 4) + q.val, by omega⟩,
      funext fun a => Fin.ext (by
        match a with
        | ⟨0, _⟩ => show win0_5.index t (0 : Fin 2) * 1024 + 1 * (j 0).val = 1024 * (t.val / 8) + p.val; rw [e0, hp0]; omega
        | ⟨1, _⟩ => show win0_5.index t (1 : Fin 2) * 1024 + 1 * (j 1).val = 1024 * (t.val / 2 % 4) + q.val; rw [e1, hq1]; omega),
      rfl, rfl⟩
  rw [hTM]
  show k0_pay3 (F := Ideal) (iblk m c 3 t) (iblk m c 4 t)
      (k0_pay2 (iblk m c 0 t) (iblk m c 1 t) (k0_pay2 (iblk m c 0 ⟨t.val - 1, hp⟩) (iblk m c 1 ⟨t.val - 1, hp⟩) (k0_pay1 (F := Ideal))))
      (iblk m c 2 t) ((cfg0.win 5).xinj (grid0.coords t) j)
    = viaBlocksAt scale (xA m c) (wA m c) (bA m c) (aA m c) (bbA m c) T M
  rw [hpq]
  refine (Payload.point_apply (iblk m c 0 ⟨t.val - 1, hp⟩) (iblk m c 1 ⟨t.val - 1, hp⟩) (iblk m c 0 t) (iblk m c 1 t)
    (iblk m c 2 t) (iblk m c 3 t) (iblk m c 4 t) p q).trans ?_
  unfold viaBlocksAt
  refine congrArg₂ (· + ·) (congrArg₂ (· + ·) (congrArg₂ (· + ·) (congrArg ((0 : EReal) + ·)
    (Finset.sum_congr rfl fun k _ => ?_)) (Finset.sum_congr rfl fun k _ => ?_)) ?_) (Finset.sum_congr rfl fun r _ => ?_)
  · -- the first half, loaded at the even point before
    exact congrArg₂ (· * ·)
      (xblk_apply m c ⟨t.val - 1, hp⟩ p k T (lo k) (by show T.val = 1024 * ((t.val - 1) / 8) + p.val; omega)
        (by show k.val = 2048 * ((t.val - 1) % 2) + k.val; omega))
      (wblk_apply m c ⟨t.val - 1, hp⟩ q k M (lo k) (by show M.val = 1024 * ((t.val - 1) / 2 % 4) + q.val; omega)
        (by show k.val = 2048 * ((t.val - 1) % 2) + k.val; omega))
  · -- the second half, loaded at t
    exact congrArg₂ (· * ·)
      (xblk_apply m c t p k T (hi k) hT (by show 2048 + k.val = 2048 * (t.val % 2) + k.val; omega))
      (wblk_apply m c t q k M (hi k) hM (by show 2048 + k.val = 2048 * (t.val % 2) + k.val; omega))
  · exact rowblk_apply m c t q M hM
  · exact congrArg₂ (· * ·) (pblk_apply m c t p r T hT) (ablk_apply m c t q r M hM)

/-! ## The odd points' blocks tile the array -/

/-- Entry (T, M) lies in the block written at the odd point of row block T / 1024 and column block M / 1024. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hlt : 8 * ((i 0).val / 1024) + 2 * ((i 1).val / 1024) + 1 < cfg0.N := by
    rw [show cfg0.N = 64 from N_0]; omega
  obtain ⟨-, -, -, -, -, -, -, -, -, -, e0, e1⟩ := idx_facts ⟨_, hlt⟩
  refine ⟨⟨_, hlt⟩, (flush0_5 _).mpr (by show (8 * ((i 0).val / 1024) + 2 * ((i 1).val / 1024) + 1) % 2 = 1; omega), ?_⟩
  show i ∈ ((View.whole main_v4).slice (win0_5.rect ⟨_, hlt⟩)).set
  rw [View.set_slice_whole, Rect.mem_set_unit]
  intro a
  match a with
  | ⟨0, _⟩ =>
    show win0_5.index ⟨_, hlt⟩ (0 : Fin 2) * 1024 ≤ (i 0).val ∧ (i 0).val < win0_5.index ⟨_, hlt⟩ (0 : Fin 2) * 1024 + 1024
    rw [e0]
    show (8 * ((i 0).val / 1024) + 2 * ((i 1).val / 1024) + 1) / 8 * 1024 ≤ (i 0).val
      ∧ (i 0).val < (8 * ((i 0).val / 1024) + 2 * ((i 1).val / 1024) + 1) / 8 * 1024 + 1024
    omega
  | ⟨1, _⟩ =>
    show win0_5.index ⟨_, hlt⟩ (1 : Fin 2) * 1024 ≤ (i 1).val ∧ (i 1).val < win0_5.index ⟨_, hlt⟩ (1 : Fin 2) * 1024 + 1024
    rw [e1]
    show (8 * ((i 0).val / 1024) + 2 * ((i 1).val / 1024) + 1) / 2 % 4 * 1024 ≤ (i 1).val
      ∧ (i 1).val < (8 * ((i 0).val / 1024) + 2 * ((i 1).val / 1024) + 1) / 2 % 4 * 1024 + 1024
    omega

/-- THE ARRAY after the run: the block-wise result of the arguments, everywhere. -/
theorem final (c : Dev nD) : (dats m 0 c).arrAt 5 cfg0.N = result m c :=
  (dats m 0 c).arrAt_eq_of_cover 5 (result m c) (flushed_eq m c) cover

/-- The kernel's run: the result array at the block-wise result, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.lean ====
/-
  A linear layer with a rank-8 correction:  out = x · Wᵀ + b + x · (c · A · Bᵀ)ᵀ  for x [8192 × 4096], W [4096 × 4096],
  b [4096], A and B [4096 × 8] and the scale c = 1.

  The reference forms the [4096 × 4096] correction c · A · Bᵀ and applies it to x.  The kernel never forms it: it first
  computes the thin projection  c · x · B  [8192 × 8], then, block by block over an 8 × 4 × 2 grid, accumulates
  x · Wᵀ over the two halves of the shared axis from zero and, at the second half, adds the bias row and the thin
  product of the projection's rows with A's rows.  At the ideal values (floats as extended reals, format changes the
  identity, a matrix product the plain sum) entry (T, M) of the kernel's result is

    (((0 + ∑ k < 2048, x(T,k)·W(M,k)) + ∑ k < 2048, x(T,2048+k)·W(M,2048+k)) + b(M)) + ∑ r, (c·∑ n, x(T,n)·B(n,r))·A(M,r)

  and of the reference's

    (∑ n, x(T,n)·W(M,n) + b(M)) + ∑ n, x(T,n)·(c·∑ r, A(M,r)·B(n,r)).

  The two halves make the whole sum on any extended reals; exchanging the double sum over (r, n) distributes products
  over sums, which needs every entry to be a real number — what the precondition "every input is finite" provides.
  The kernel's programs run and keep their arguments by their own frames; the idealized kernel is the kernel's text
  read at the ideal values (no rewrite to account for).
-/
import proofs.«177378_j17188459119051_1_alg».proof.Defs
import proofs.«177378_j17188459119051_1_alg».proof.Proof.Gen.Kernel
import proofs.«177378_j17188459119051_1_alg».proof.Proof.Gen.Kernel.Skeleton
import proofs.«177378_j17188459119051_1_alg».proof.Proof.Gen.Kernel.Launch
import proofs.«177378_j17188459119051_1_alg».proof.Proof.Gen.Kernel.Points
import proofs.«177378_j17188459119051_1_alg».proof.Proof.Gen.Kernel.Frame
import proofs.«177378_j17188459119051_1_alg».proof.Proof.Gen.KernelIdeal
import proofs.«177378_j17188459119051_1_alg».proof.Proof.Gen.KernelIdeal.Skeleton
import proofs.«177378_j17188459119051_1_alg».proof.Proof.Gen.KernelIdeal.Launch
import proofs.«177378_j17188459119051_1_alg».proof.Proof.Gen.KernelIdeal.Points
import proofs.«177378_j17188459119051_1_alg».proof.Proof.Gen.KernelIdeal.Frame
import proofs.«177378_j17188459119051_1_alg».proof.Proof.Gen.ReferenceIdeal
import proofs.«177378_j17188459119051_1_alg».proof.Proof.Gen.KernelIdeal.Value
import proofs.«177378_j17188459119051_1_alg».proof.Proof.Gen.ReferenceIdeal.Run
import proofs.«177378_j17188459119051_1_alg».proof.Proof.Gen.ReferenceIdeal.Read
import proofs.«177378_j17188459119051_1_alg».proof.Proof.Gen.Pre_finite_inputs
import proofs.«177378_j17188459119051_1_alg».proof.Proof.Spec
import proofs.«177378_j17188459119051_1_alg».proof.Proof.Finite
import proofs.«177378_j17188459119051_1_alg».proof.Proof.RefSide
import proofs.«177378_j17188459119051_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The scale, the number 0x3F800000 denotes, is a real number. -/
theorem scale_real : Cert.RealLib.IsReal Cert.KernelIdeal.Blocks.scale :=
  Cert.RealLib.allReal_constant_one ⟨0, ![]⟩ ValueIdx.ix0

/-- Both programs end with the same array: the kernel's is the block-wise form, the reference's the direct form, of
    arguments that agree and whose entries are real numbers. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.LowRank.Ref.val_eq_direct, (hagree c).1, (hagree c).2.1,
    (hagree c).2.2.1, (hagree c).2.2.2.1, (hagree c).2.2.2.2]
  obtain ⟨hx, hW, hb, hA, hB⟩ := Cert.LowRank.Fin.real_of_pre _ _ _ _ _ (hpre c)
  exact (Cert.LowRank.viaBlocks_eq_direct scale_real hx hW hb hA hB).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
